-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x256 : Shape := ⟨3, ![16, 512, 256]⟩
abbrev S_ : Shape := ⟨0, ![]⟩

class Facts : Prop where
  bcast_S_S16x512x256 : S_.BroadcastsInDim S16x512x256 (![] : Fin 0 → Fin S16x512x256.rank)
  reducesTo_S16x512x256_S_d0_1_2 : S16x512x256.ReducesTo [0, 1, 2] S_
  h_S_ : 0 < S_.numel

variable [Facts]

def fn {F : FTy → Type} [FloatOps F] (main_arg0 : FVec F S16x512x256 .f32) : IVec S_ 1 :=
  let main_v0 : FVec F S16x512x256 .f32 := Host.absf main_arg0
  let main_cst : FVec F S_ .f32 := constant S_ .f32 0x7F800000#32
  let main_v1 : FVec F S16x512x256 .f32 := broadcastInDim S16x512x256 ![] bcast_S_S16x512x256 main_cst
  let main_v2 : IVec S16x512x256 1 := cmpf .olt main_v0 main_v1
  let main_c : IVec S_ 1 := constantI S_ 1 1#1
  let main_v3 : IVec S_ 1 := (fun x v => Host.reduce IntOp.andi x v reducesTo_S16x512x256_S_d0_1_2 h_S_) main_v2 main_c
  main_v3
-- ==== Kernel.lean ====
abbrev S16x512x256 : Shape := ⟨3, ![16, 512, 256]⟩
abbrev S8192x256 : Shape := ⟨2, ![8192, 256]⟩
abbrev S1x1 : Shape := ⟨2, ![1, 1]⟩
abbrev S1024x256 : Shape := ⟨2, ![1024, 256]⟩
abbrev S1x256 : Shape := ⟨2, ![1, 256]⟩
abbrev S256 : Shape := ⟨1, ![256]⟩
abbrev S1024 : Shape := ⟨1, ![1024]⟩
abbrev S1024x1 : Shape := ⟨2, ![1024, 1]⟩
abbrev S1 : Shape := ⟨1, ![1]⟩
abbrev S_ : Shape := ⟨0, ![]⟩

abbrev nBuf : Space → Nat
  | .hbm => 4
  | .vmem => 5
  | .smem => 0
  | _ => 0

abbrev bufTy : (tb : Table) → Fin (tcTables nBuf tb) → BufTy
  | .hbm, ⟨0, _⟩ => ⟨S16x512x256, .f32⟩
  | .hbm, ⟨1, _⟩ => ⟨S8192x256, .f32⟩
  | .hbm, ⟨2, _⟩ => ⟨S1x1, .f32⟩
  | .hbm, ⟨3, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1x1, .f32⟩
  | .local _ .vmem, ⟨3, _⟩ => ⟨S1x256, .f32⟩
  | .local _ .vmem, ⟨4, _⟩ => ⟨S1x1, .f32⟩
  | _, _ => ⟨S16x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v22 : BitVec 1 := Scalar.cmpi .eq arg0 c7_i32
  let v23 : BitVec 32 := Scalar.extui v22
  let c0_i32_12 : BitVec 32 := 0#32
  let v24 : BitVec 1 := Scalar.cmpi .ne v23 c0_i32_12
  v24

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  shapeCasts_S16x512x256_S8192x256 : S16x512x256.ShapeCasts S8192x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  reduces_S1024x256_S256 : S1024x256.Reduces [0] S256
  shapeCasts_S256_S1x256 : S256.ShapeCasts S1x256
  reduces_S1024x256_S1024 : S1024x256.Reduces [1] S1024
  shapeCasts_S1024_S1024x1 : S1024.ShapeCasts S1024x1
  reduces_S1024x1_S1 : S1024x1.Reduces [0] S1
  shapeCasts_S1_S1x1 : S1.ShapeCasts S1x1
  reduces_S1x256_S1 : S1x256.Reduces [1] S1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)

variable [Facts₀]

abbrev win0_0 : Pipeline.Window sig grid0 :=
  Pipeline.Window.ofSpec (Memref.whole main_v0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S16x512x256 : Shape := ⟨3, ![16, 512, 256]⟩
abbrev S8192x256 : Shape := ⟨2, ![8192, 256]⟩
abbrev S256x8192 : Shape := ⟨2, ![256, 8192]⟩
abbrev S8192x8192 : Shape := ⟨2, ![8192, 8192]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S16x512x256, .f32⟩
  | .hbm, ⟨1, _⟩ => ⟨S8192x256, .f32⟩
  | .hbm, ⟨2, _⟩ => ⟨S256x8192, .f32⟩
  | .hbm, ⟨3, _⟩ => ⟨S8192x8192, .f32⟩
  | .hbm, ⟨4, _⟩ => ⟨S_, .f32⟩
  | .hbm, ⟨5, _⟩ => ⟨S_, .f32⟩
  | .hbm, ⟨6, _⟩ => ⟨S8192x8192, .i32⟩
  | .hbm, ⟨7, _⟩ => ⟨S8192x8192, .i32⟩
  | .hbm, ⟨8, _⟩ => ⟨S_, .i32⟩
  | .hbm, ⟨9, _⟩ => ⟨S8192x8192, .i32⟩
  | .hbm, ⟨10, _⟩ => ⟨S8192x8192, .i32⟩
  | .hbm, ⟨11, _⟩ => ⟨S8192x8192, .i1⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | _, _ => ⟨S16x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_c : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_cst : Ref sig .tc := ⟨.hbm, 12, rfl⟩
abbrev main_call0_v5 : Ref sig .tc := ⟨.hbm, 13, rfl⟩
abbrev main_call0_v6 : Ref sig .tc := ⟨.hbm, 14, rfl⟩
abbrev main_call0_cst_0 : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩

abbrev nD : Nat := 1
abbrev τ : Topo := Topo.v7x

variable {F : FTy → Type} [FloatOps F]

class Facts₀ : Prop where
  shapeCasts_S16x512x256_S8192x256 : S16x512x256.ShapeCasts S8192x256
  transposes_S8192x256_S256x8192_1_0 : S8192x256.Transposes [1, 0] S256x8192
  reducesTo_S8192x8192_S_d0_1 : S8192x8192.ReducesTo [0, 1] S_
  h_S_ : 0 < S_.numel
  bcast_S_S8192x8192 : S_.BroadcastsInDim S8192x8192 (![] : Fin 0 → Fin S8192x8192.rank)
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.Spec.lean ====
/-
  The specification. The descriptors, flattened, are a matrix X of 8192 rows and 256 columns. Both programs
  compute

      | ( ∑_d (∑ᵢ X i d)² − ∑ᵢ ∑_d (X i d)² ) / c |,      c the float 8192 · 8191,

  the mean off-diagonal entry of X Xᵀ in absolute value: the sum of all entries of X Xᵀ is the squared length of
  the column sums, its trace the sum of the squared entries. The kernel walks the rows in eight blocks of 1024
  and carries two running sums, so the partial sums over the first 1024 · n rows are named here too, with the step
  from n to n + 1 blocks and their value after all eight.
-/
import Idealize.ShloMosaic.PureOps.Ideal
import Idealize.ShloMosaic.Lib.ValueIdx

noncomputable section

open scoped BigOperators

namespace Cert.Diversity

open Idealize.ShloMosaic Idealize.ShloMosaic.ValueIdx

/-- A flattened descriptor matrix: 8192 rows, 256 columns, extended reals. -/
abbrev Mat : Type := (⟨2, ![8192, 256]⟩ : Shape).Idx → EReal

/-- Column d summed over all rows. -/
def colTotal (X : Mat) (d : Fin 256) : EReal := ∑ i : Fin 8192, X (ix2 i d)

/-- The sum of the squares of all entries, row by row. -/
def sqTotal (X : Mat) : EReal := ∑ i : Fin 8192, ∑ d : Fin 256, X (ix2 i d) * X (ix2 i d)

/-- The off-diagonal sum over the float 8192 · 8191 (its bit pattern kept as printed). -/
def quotient (X : Mat) : EReal :=
  Ideal.div ((∑ d : Fin 256, colTotal X d * colTotal X d) - sqTotal X) (Ideal.ofBits .f32 0x4C7FF800#32)

/-- The result of both programs: the absolute value of that quotient. -/
def diversity (X : Mat) : EReal := max (quotient X) (-(quotient X))

/-! ## Partial sums over the first rows -/

/-- Row i of X at column d, for any natural i: zero past the last row. -/
def rowAt (X : Mat) (i : ℕ) (d : Fin 256) : EReal := if h : i < 8192 then X (ix2 ⟨i, h⟩ d) else 0

theorem rowAt_of_lt (X : Mat) (i : ℕ) (h : i < 8192) (d : Fin 256) : rowAt X i d = X (ix2 ⟨i, h⟩ d) := dif_pos h

/-- Column d summed over the first n blocks of 1024 rows. -/
def colPartial (X : Mat) (n : ℕ) (d : Fin 256) : EReal := ∑ i ∈ Finset.range (1024 * n), rowAt X i d

/-- The squares summed over the first n blocks of 1024 rows. -/
def sqPartial (X : Mat) (n : ℕ) : EReal :=
  ∑ i ∈ Finset.range (1024 * n), ∑ d : Fin 256, rowAt X i d * rowAt X i d

/-- A sum over the first n + 1 blocks is the sum over the first n plus block n's. -/
theorem block_sum {M : Type*} [AddCommMonoid M] (f : ℕ → M) (n : ℕ) :
    ∑ i ∈ Finset.range (1024 * (n + 1)), f i
      = ∑ i ∈ Finset.range (1024 * n), f i + ∑ r : Fin 1024, f (1024 * n + r.val) := by
  rw [Nat.mul_succ, Finset.sum_range_add, Fin.sum_univ_eq_sum_range (fun r => f (1024 * n + r)) 1024]

theorem colPartial_zero (X : Mat) (d : Fin 256) : colPartial X 0 d = 0 := by
  simp [colPartial]

theorem sqPartial_zero (X : Mat) : sqPartial X 0 = 0 := by
  simp [sqPartial]

theorem colPartial_succ (X : Mat) (n : ℕ) (d : Fin 256) :
    colPartial X (n + 1) d = colPartial X n d + ∑ r : Fin 1024, rowAt X (1024 * n + r.val) d :=
  block_sum (fun i => rowAt X i d) n

theorem sqPartial_succ (X : Mat) (n : ℕ) :
    sqPartial X (n + 1)
      = sqPartial X n + ∑ r : Fin 1024, ∑ d : Fin 256, rowAt X (1024 * n + r.val) d * rowAt X (1024 * n + r.val) d :=
  block_sum (fun i => ∑ d : Fin 256, rowAt X i d * rowAt X i d) n

/-- A sum of rows over the first 8192 naturals is the sum over the matrix's rows. -/
theorem sum_rows {M : Type*} [AddCommMonoid M] (X : Mat) (g : (Fin 256 → EReal) → M) :
    ∑ i ∈ Finset.range (1024 * 8), g (rowAt X i) = ∑ i : Fin 8192, g (fun d => X (ix2 i d)) := by
  rw [show 1024 * 8 = 8192 from rfl, ← Fin.sum_univ_eq_sum_range (fun i => g (rowAt X i)) 8192]
  refine Finset.sum_congr rfl fun i _ => congrArg g (funext fun d => ?_)
  rw [rowAt_of_lt X i.val i.isLt]

theorem colPartial_eight (X : Mat) (d : Fin 256) : colPartial X 8 d = colTotal X d :=
  sum_rows X (fun row => row d)

theorem sqPartial_eight (X : Mat) : sqPartial X 8 = sqTotal X :=
  sum_rows X (fun row => ∑ d : Fin 256, row d * row d)

end Cert.Diversity

end
-- ==== Proof.Finite.lean ====
/-
  What the precondition gives. It says that every entry x of the descriptors satisfies |x| < +∞ (one comparison
  against the float +∞, whose bit pattern denotes the top of the extended reals, all of them and-ed together).
  On the extended reals |x| = max x (−x) is below the top exactly when x is a real number.
-/
import proofs.«126598_j42004780155257_1_alg».proof.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs Idealize.ShloMosaic Idealize.ShloMosaic.ValueIdx

instance : Subsingleton S_.Idx := ⟨fun a b => funext fun d => d.elim0⟩

/-- The float +∞ denotes the top of the extended reals. -/
theorem top_bits : Ideal.ofBits .f32 0x7F800000#32 = ⊤ := by simp [Ideal.ofBits, Ideal.ieee]

/-- An extended real whose absolute value is below the top is a real number. -/
theorem real_of_abs_lt_top (x : EReal) (h : max x (-x) < ⊤) : ∃ r : ℝ, x = (r : EReal) := by
  induction x using EReal.rec with
  | bot => simp at h
  | top => simp at h
  | coe r => exact ⟨r, rfl⟩

variable [Facts]

/-- Under the precondition every entry of the argument is a real number. -/
theorem real_of_pre (A : FVec Ideal S16x512x256 .f32) (h : fn (F := Ideal) A = fun _ => 1#1)
    (i : S16x512x256.Idx) : ∃ r : ℝ, A i = (r : EReal) := by
  have h0 := congrFun h ix0
  dsimp only [fn] at h0
  have hi := Host.reduce_andi_all _ _ _ _ ix0 h0 i
  have hc : Ideal.cmp .olt (max (A i) (-(A i))) (Ideal.ofBits .f32 0x7F800000#32) = 1#1 := hi
  rw [top_bits] at hc
  have hlt : max (A i) (-(A i)) < ⊤ := by
    by_contra hn
    have e : Ideal.cmp .olt (max (A i) (-(A i))) ⊤ = BitVec.ofBool (decide (max (A i) (-(A i)) < ⊤)) := rfl
    rw [e, decide_eq_false hn] at hc
    exact absurd hc (by decide)
  exact real_of_abs_lt_top _ hlt

end Cert.Pre_finite_inputs.Finite

end
-- ==== Proof.KernelPieces.lean ====
/-
  What each control case of the kernel body leaves in the two carried accumulators and in the result block, as a
  value. The body has three cases over the eight grid points: the first point resets both accumulators and then
  updates them, the middle points update them over what the point before left, and the last point updates them and
  stores the result computed from the updated contents. Each buffer ends a case covered by whole-buffer stores, so
  its contents are the last store's payload, whose loads read the whole buffers (or, for a load that follows a
  store of the same case, that store's payload).
-/
import proofs.«126598_j42004780155257_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-! ## The first point: both accumulators reset, then updated -/

/-- The column sums after the first point: zero plus the first block's column sums. -/
theorem first_cols (c : Dev nD) (i : grid0.Coords) (a1 : Memref sig .tc .vmem S1024x256 .f32) (h1 : a1.IsWhole) (a2 : Memref sig .tc .vmem S1x1 .f32) (h2 : a2.IsWhole) (a3 : Memref sig .tc .vmem S1x256 .f32) (h3 : a3.IsWhole) (a4 : Memref sig .tc .vmem S1x1 .f32) (h4 : a4.IsWhole) (hc0 : cond0_0 i) (hc1 : ¬cond0_1 i) (x0 : Vec F S1024x256 .f32) :
    sout0_A_0 c i a1 h1 a2 h2 a3 h3 a4 h4 hc0 hc1 x0 = k0_pay4 x0 (k0_pay1 (F := F)) := by
  unfold sout0_A_0
  rw [View.read_writes_eq_canon _ _ _ (scover0_A_0 c i a1 h1 a2 h2 a3 h3 a4 h4 hc0 hc1 x0)]
  unfold kernelRun0_A
  dsimp only
  sl_unfold_words
  rw [View.canon_cons_unit_zero (S := S1x256) hz, View.readCov_unit_zero (S := S1x256) _ hz]
  simp only [View.readAt_eq_ld, h1.read_unread, h3.read_unread, h4.read_unread, View.ld_unit_zero (S := S1024x256) hz, View.ld_unit_zero (S := S1x256) hz, View.ld_unit_zero (S := S1x1) hz, View.readCov_unit_zero (S := S1x256) _ hz, View.readCov_unit_zero (S := S1x1) _ hz]

/-- The sum of squares after the first point: zero plus the first block's. -/
theorem first_sq (c : Dev nD) (i : grid0.Coords) (a1 : Memref sig .tc .vmem S1024x256 .f32) (h1 : a1.IsWhole) (a2 : Memref sig .tc .vmem S1x1 .f32) (h2 : a2.IsWhole) (a3 : Memref sig .tc .vmem S1x256 .f32) (h3 : a3.IsWhole) (a4 : Memref sig .tc .vmem S1x1 .f32) (h4 : a4.IsWhole) (hc0 : cond0_0 i) (hc1 : ¬cond0_1 i) (x0 : Vec F S1024x256 .f32) :
    sout0_A_1 c i a1 h1 a2 h2 a3 h3 a4 h4 hc0 hc1 x0 = k0_pay5 x0 (k0_pay2 (F := F)) := by
  unfold sout0_A_1
  rw [View.read_writes_eq_canon _ _ _ (scover0_A_1 c i a1 h1 a2 h2 a3 h3 a4 h4 hc0 hc1 x0)]
  unfold kernelRun0_A
  dsimp only
  sl_unfold_words
  rw [View.canon_cons_unit_zero (S := S1x1) hz, View.readCov_unit_zero (S := S1x1) _ hz]
  simp only [View.readAt_eq_ld, h1.read_unread, h3.read_unread, h4.read_unread, View.ld_unit_zero (S := S1024x256) hz, View.ld_unit_zero (S := S1x256) hz, View.ld_unit_zero (S := S1x1) hz, View.readCov_unit_zero (S := S1x256) _ hz, View.readCov_unit_zero (S := S1x1) _ hz]

/-! ## A middle point: both accumulators updated over what the point before left -/

theorem middle_cols (c : Dev nD) (i : grid0.Coords) (a1 : Memref sig .tc .vmem S1024x256 .f32) (h1 : a1.IsWhole) (a2 : Memref sig .tc .vmem S1x1 .f32) (h2 : a2.IsWhole) (a3 : Memref sig .tc .vmem S1x256 .f32) (h3 : a3.IsWhole) (a4 : Memref sig .tc .vmem S1x1 .f32) (h4 : a4.IsWhole) (hc0 : ¬cond0_0 i) (hc1 : ¬cond0_1 i) (x0 : Vec F S1024x256 .f32) (xs0 : Vec F S1x256 .f32) (xs1 : Vec F S1x1 .f32) :
    sout0_B_0 c i a1 h1 a2 h2 a3 h3 a4 h4 hc0 hc1 x0 xs0 xs1 = k0_pay4 x0 xs0 := by
  unfold sout0_B_0
  rw [View.read_writes_eq_canon _ _ _ (scover0_B_0 c i a1 h1 a2 h2 a3 h3 a4 h4 hc0 hc1 x0 xs0 xs1)]
  unfold kernelRun0_B
  dsimp only
  sl_unfold_words
  rw [View.canon_unit_zero hz]
  simp only [View.readAt_eq_ld, h1.read_unread, h3.read_unread, h4.read_unread, View.ld_unit_zero (S := S1024x256) hz, View.ld_unit_zero (S := S1x256) hz, View.ld_unit_zero (S := S1x1) hz, View.readCov_unit_zero (S := S1x256) _ hz, View.readCov_unit_zero (S := S1x1) _ hz]

theorem middle_sq (c : Dev nD) (i : grid0.Coords) (a1 : Memref sig .tc .vmem S1024x256 .f32) (h1 : a1.IsWhole) (a2 : Memref sig .tc .vmem S1x1 .f32) (h2 : a2.IsWhole) (a3 : Memref sig .tc .vmem S1x256 .f32) (h3 : a3.IsWhole) (a4 : Memref sig .tc .vmem S1x1 .f32) (h4 : a4.IsWhole) (hc0 : ¬cond0_0 i) (hc1 : ¬cond0_1 i) (x0 : Vec F S1024x256 .f32) (xs0 : Vec F S1x256 .f32) (xs1 : Vec F S1x1 .f32) :
    sout0_B_1 c i a1 h1 a2 h2 a3 h3 a4 h4 hc0 hc1 x0 xs0 xs1 = k0_pay5 x0 xs1 := by
  unfold sout0_B_1
  rw [View.read_writes_eq_canon _ _ _ (scover0_B_1 c i a1 h1 a2 h2 a3 h3 a4 h4 hc0 hc1 x0 xs0 xs1)]
  unfold kernelRun0_B
  dsimp only
  sl_unfold_words
  rw [View.canon_unit_zero hz]
  simp only [View.readAt_eq_ld, h1.read_unread, h3.read_unread, h4.read_unread, View.ld_unit_zero (S := S1024x256) hz, View.ld_unit_zero (S := S1x256) hz, View.ld_unit_zero (S := S1x1) hz, View.readCov_unit_zero (S := S1x256) _ hz, View.readCov_unit_zero (S := S1x1) _ hz]

/-! ## The last point: both accumulators updated, and the result stored from their new contents -/

theorem last_cols (c : Dev nD) (i : grid0.Coords) (a1 : Memref sig .tc .vmem S1024x256 .f32) (h1 : a1.IsWhole) (a2 : Memref sig .tc .vmem S1x1 .f32) (h2 : a2.IsWhole) (a3 : Memref sig .tc .vmem S1x256 .f32) (h3 : a3.IsWhole) (a4 : Memref sig .tc .vmem S1x1 .f32) (h4 : a4.IsWhole) (hc0 : ¬cond0_0 i) (hc1 : cond0_1 i) (x0 : Vec F S1024x256 .f32) (xs0 : Vec F S1x256 .f32) (xs1 : Vec F S1x1 .f32) :
    sout0_C_0 c i a1 h1 a2 h2 a3 h3 a4 h4 hc0 hc1 x0 xs0 xs1 = k0_pay4 x0 xs0 := by
  unfold sout0_C_0
  rw [View.read_writes_eq_canon _ _ _ (scover0_C_0 c i a1 h1 a2 h2 a3 h3 a4 h4 hc0 hc1 x0 xs0 xs1)]
  unfold kernelRun0_C
  dsimp only
  sl_unfold_words
  rw [View.canon_unit_zero hz]
  simp only [View.readAt_eq_ld, h1.read_unread, h3.read_unread, h4.read_unread, View.ld_unit_zero (S := S1024x256) hz, View.ld_unit_zero (S := S1x256) hz, View.ld_unit_zero (S := S1x1) hz, View.readCov_unit_zero (S := S1x256) _ hz, View.readCov_unit_zero (S := S1x1) _ hz]

theorem last_sq (c : Dev nD) (i : grid0.Coords) (a1 : Memref sig .tc .vmem S1024x256 .f32) (h1 : a1.IsWhole) (a2 : Memref sig .tc .vmem S1x1 .f32) (h2 : a2.IsWhole) (a3 : Memref sig .tc .vmem S1x256 .f32) (h3 : a3.IsWhole) (a4 : Memref sig .tc .vmem S1x1 .f32) (h4 : a4.IsWhole) (hc0 : ¬cond0_0 i) (hc1 : cond0_1 i) (x0 : Vec F S1024x256 .f32) (xs0 : Vec F S1x256 .f32) (xs1 : Vec F S1x1 .f32) :
    sout0_C_1 c i a1 h1 a2 h2 a3 h3 a4 h4 hc0 hc1 x0 xs0 xs1 = k0_pay5 x0 xs1 := by
  unfold sout0_C_1
  rw [View.read_writes_eq_canon _ _ _ (scover0_C_1 c i a1 h1 a2 h2 a3 h3 a4 h4 hc0 hc1 x0 xs0 xs1)]
  unfold kernelRun0_C
  dsimp only
  sl_unfold_words
  rw [View.canon_unit_zero hz]
  simp only [View.readAt_eq_ld, h1.read_unread, h3.read_unread, h4.read_unread, View.ld_unit_zero (S := S1024x256) hz, View.ld_unit_zero (S := S1x256) hz, View.ld_unit_zero (S := S1x1) hz, View.readCov_unit_zero (S := S1x256) _ hz, View.readCov_unit_zero (S := S1x1) _ hz]

/-- The result block the last point stores: the closing formula of the updated accumulators. -/
theorem last_out (c : Dev nD) (i : grid0.Coords) (a1 : Memref sig .tc .vmem S1024x256 .f32) (h1 : a1.IsWhole) (a2 : Memref sig .tc .vmem S1x1 .f32) (h2 : a2.IsWhole) (a3 : Memref sig .tc .vmem S1x256 .f32) (h3 : a3.IsWhole) (a4 : Memref sig .tc .vmem S1x1 .f32) (h4 : a4.IsWhole) (hc0 : ¬cond0_0 i) (hc1 : cond0_1 i) (x0 : Vec F S1024x256 .f32) (xs0 : Vec F S1x256 .f32) (xs1 : Vec F S1x1 .f32) :
    out0_C_1 c i a1 h1 a2 h2 a3 h3 a4 h4 hc0 hc1 x0 xs0 xs1 = k0_pay6 (k0_pay4 x0 xs0) (k0_pay5 x0 xs1) := by
  unfold out0_C_1
  rw [View.read_writes_eq_canon _ _ _ (cover0_C_1 c i a1 h1 a2 h2 a3 h3 a4 h4 hc0 hc1 x0 xs0 xs1)]
  unfold kernelRun0_C
  dsimp only
  sl_unfold_words
  rw [View.canon_unit_zero hz]
  simp only [View.readAt_eq_ld, h1.read_unread, h3.read_unread, h4.read_unread, View.ld_unit_zero (S := S1024x256) hz, View.ld_unit_zero (S := S1x256) hz, View.ld_unit_zero (S := S1x1) hz, View.readCov_unit_zero (S := S1x256) _ hz, View.readCov_unit_zero (S := S1x1) _ hz]

end Cert.KernelIdeal.Pieces

end
-- ==== Proof.KernelPayloads.lean ====
/-
  The kernel body's arithmetic, read at an index over the extended reals. Per grid point the body has one row
  block x (1024 × 256) in hand and two carried accumulators, a row s of 256 column sums and a single number q:

    the reset values are zero;
    the new column sums are     s d + ∑ᵣ x r d                      (a lane reduction down the rows);
    the new sum of squares is   q + ∑ᵣ ∑_d (x r d)²                 (across each row, then down the rows);
    the last point's result is  | (∑_d (s d)² − q) / c |.

  Each reduction is the Fin-indexed sum along its one axis, each change of shape only renames the index (a unit
  axis added or dropped), and at the extended reals the arithmetic is the textbook one.
-/
import proofs.«126598_j42004780155257_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Payload

open Cert.KernelIdeal Cert.KernelIdeal.Gen Idealize.ShloMosaic Idealize.ShloMosaic.ValueIdx

/-! ## The reductions, each along one axis -/

/-- Down the rows of a 1024 × 256 block: at column d, the sum over the rows. -/
theorem sum_rows_apply (x : FVec Ideal S1024x256 .f32) (hr : S1024x256.Reduces [0] S256) (hφ : FKind.Formats .f32)
    (hacc : (0x00000000#32 : BitVec 32) = FKind.add.neutral .f32 hφ) (d : Fin 256) :
    multiReduction .add [0] S256 x 0x00000000#32 hr hφ hacc (ix1 d) = ∑ r : Fin 1024, x (ix2 r d) :=
  (Ideal.multiReduction_add_single x _ hr hφ hacc (ix1 d)).trans
    (Finset.sum_congr rfl fun r _ => congrArg x (funext fun a => match a with | ⟨0, _⟩ => rfl | ⟨1, _⟩ => rfl))

/-- Across the columns of a 1024 × 256 block: at row r, the sum over the columns. -/
theorem sum_cols_apply (x : FVec Ideal S1024x256 .f32) (hr : S1024x256.Reduces [1] S1024) (hφ : FKind.Formats .f32)
    (hacc : (0x00000000#32 : BitVec 32) = FKind.add.neutral .f32 hφ) (r : Fin 1024) :
    multiReduction .add [1] S1024 x 0x00000000#32 hr hφ hacc (ix1 r) = ∑ d : Fin 256, x (ix2 r d) :=
  (Ideal.multiReduction_add_single x _ hr hφ hacc (ix1 r)).trans
    (Finset.sum_congr rfl fun d _ => congrArg x (funext fun a => match a with | ⟨0, _⟩ => rfl | ⟨1, _⟩ => rfl))

/-- Down a column of 1024 entries. -/
theorem sum_column_apply (x : FVec Ideal S1024x1 .f32) (hr : S1024x1.Reduces [0] S1) (hφ : FKind.Formats .f32)
    (hacc : (0x00000000#32 : BitVec 32) = FKind.add.neutral .f32 hφ) (u : Fin 1) :
    multiReduction .add [0] S1 x 0x00000000#32 hr hφ hacc (ix1 u) = ∑ r : Fin 1024, x (ix2 r u) :=
  (Ideal.multiReduction_add_single x _ hr hφ hacc (ix1 u)).trans
    (Finset.sum_congr rfl fun r _ => congrArg x (funext fun a => match a with | ⟨0, _⟩ => rfl | ⟨1, _⟩ => rfl))

/-- Across a row of 256 entries. -/
theorem sum_row_apply (x : FVec Ideal S1x256 .f32) (hr : S1x256.Reduces [1] S1) (hφ : FKind.Formats .f32)
    (hacc : (0x00000000#32 : BitVec 32) = FKind.add.neutral .f32 hφ) (u : Fin 1) :
    multiReduction .add [1] S1 x 0x00000000#32 hr hφ hacc (ix1 u) = ∑ d : Fin 256, x (ix2 u d) :=
  (Ideal.multiReduction_add_single x _ hr hφ hacc (ix1 u)).trans
    (Finset.sum_congr rfl fun d _ => congrArg x (funext fun a => match a with | ⟨0, _⟩ => rfl | ⟨1, _⟩ => rfl))

/-! ## A trailing unit axis added: a vector viewed as a column -/

/-- An [a] vector cast to [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]; omega)

/-! ## The payloads -/

/-- The reset of the column sums stores zeros. -/
theorem pay1_apply (j : S1x256.Idx) : (k0_pay1 (F := Ideal)) j = 0 := by
  unfold k0_pay1
  refine (congrFun (shapeCast_self _ _) j).trans ?_
  exact Ideal.ofBits_zero_f32

/-- The reset of the sum of squares stores zero. -/
theorem pay2_apply (j : S1x1.Idx) : (k0_pay2 (F := Ideal)) j = 0 := by
  unfold k0_pay2
  refine (congrFun (shapeCast_self _ _) j).trans ?_
  exact Ideal.ofBits_zero_f32

/-- The accumulated column sums: the carried row plus the block's column sums. -/
theorem pay4_apply (x : FVec Ideal S1024x256 .f32) (s : FVec Ideal S1x256 .f32) (u : Fin 1) (d : Fin 256) :
    k0_pay4 (F := Ideal) x s (ix2 u d) = s (ix2 u d) + ∑ r : Fin 1024, x (ix2 r d) := by
  unfold k0_pay4 k0_pay3
  refine (congrFun (shapeCast_self _ _) (ix2 u d)).trans ?_
  refine congrArg (s (ix2 u d) + ·) ?_
  refine (shapeCast_a_1a_apply _ _ u d).trans ?_
  refine (sum_rows_apply _ _ _ _ d).trans ?_
  exact Finset.sum_congr rfl fun r _ => congrFun (shapeCast_self x _) (ix2 r d)

/-- The accumulated sum of squares: the carried number plus the block's squared entries, row by row. -/
theorem pay5_apply (x : FVec Ideal S1024x256 .f32) (q : FVec Ideal S1x1 .f32) (u v : Fin 1) :
    k0_pay5 (F := Ideal) x q (ix2 u v) = q (ix2 u v) + ∑ r : Fin 1024, ∑ d : Fin 256, x (ix2 r d) * x (ix2 r d) := by
  unfold k0_pay5 k0_pay3
  refine (congrFun (shapeCast_self _ _) (ix2 u v)).trans ?_
  refine congrArg (q (ix2 u v) + ·) ?_
  refine (shapeCast_a_1a_apply _ _ u v).trans ?_
  refine (sum_column_apply _ _ _ _ v).trans ?_
  refine Finset.sum_congr rfl fun r _ => ?_
  refine (shapeCast_a_a1_apply _ _ r v).trans ?_
  refine (sum_cols_apply _ _ _ _ r).trans ?_
  refine Finset.sum_congr rfl fun d _ => ?_
  show shapeCast S1024x256 x _ (ix2 r d) * shapeCast S1024x256 x _ (ix2 r d) = _
  rw [shapeCast_self]

/-- The last point's result: the squared length of the column sums less the sum of squares, over c, in absolute value. -/
theorem pay6_apply (s : FVec Ideal S1x256 .f32) (q : FVec Ideal S1x1 .f32) (u v : Fin 1) :
    k0_pay6 (F := Ideal) s q (ix2 u v)
      = max (Ideal.div ((∑ d : Fin 256, s (ix2 v d) * s (ix2 v d)) - q (ix2 u v)) (Ideal.ofBits .f32 0x4C7FF800#32))
          (-(Ideal.div ((∑ d : Fin 256, s (ix2 v d) * s (ix2 v d)) - q (ix2 u v)) (Ideal.ofBits .f32 0x4C7FF800#32))) := by
  unfold k0_pay6
  have e : shapeCast S1x1 (multiReduction .add [1] S1 (mulf s s) 0x00000000#32 reduces_S1x256_S1 (.inl rfl) rfl) shapeCasts_S1_S1x1 (ix2 u v)
      = ∑ d : Fin 256, s (ix2 v d) * s (ix2 v d) :=
    (shapeCast_a_1a_apply _ _ u v).trans (sum_row_apply _ _ _ _ v)
  show max (Ideal.div (shapeCast S1x1 _ shapeCasts_S1_S1x1 (ix2 u v) - q (ix2 u v)) _) (-(Ideal.div (shapeCast S1x1 _ shapeCasts_S1_S1x1 (ix2 u v) - q (ix2 u v)) _)) = _
  rw [e]
  rfl

end Cert.KernelIdeal.Payload

end
-- ==== Proof.KernelAccum.lean ====
/-
  The kernel's two accumulators, point by point. With X the flattened descriptors as the region finds them, the
  block the body sees at grid point t is rows 1024·t … 1024·t + 1023 of X. After point n the carried row holds, at
  column d, the sum of column d over the first 1024·(n + 1) rows, and the carried number holds the sum of the squared
  entries of those rows: at the first point both start from zero, and every later point adds its block to what the
  point before left. This is an induction over the points. The last point then stores the closing formula of the
  two accumulators after all eight blocks, which is the specification's value.
-/
import proofs.«126598_j42004780155257_1_alg».proof.Proof.Gen.KernelIdeal.Frame
import proofs.«126598_j42004780155257_1_alg».proof.Proof.KernelPieces
import proofs.«126598_j42004780155257_1_alg».proof.Proof.KernelPayloads
import proofs.«126598_j42004780155257_1_alg».proof.Proof.Spec
import Idealize.ShloMosaic.Lib.Pipeline.Value
import Idealize.ShloMosaic.Lib.Tactic

noncomputable section

open scoped BigOperators

open Idealize.ShloMosaic Idealize.ShloMosaic.TcCoe Idealize.SL.Sem
open Idealize.ShloMosaic.Pipeline (Dat)

namespace Cert.KernelIdeal.Accum

open Cert.KernelIdeal Cert.KernelIdeal.Gen Cert.KernelIdeal.Pieces Cert.KernelIdeal.Payload Cert.Diversity
open Idealize.ShloMosaic.ValueIdx

variable (m : (ℓ : Loc nD τ sig) → Buf (Elt Ideal) ℓ)

/-- The flattened descriptors as the region finds them. -/
abbrev xarr (c : Dev nD) : FVec Ideal S8192x256 .f32 := V m c main_v0

/-- The row block the body sees at point t. -/
abbrev xblk (c : Dev nD) (t : Fin cfg0.N) : FVec Ideal S1024x256 .f32 := iblk m c 0 t

/-- The input window's block index at point t is (t, 0) — decided once over the grid. -/
theorem idx_facts : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- The block at point t, at (r, d), is X at row 1024·t + r. -/
theorem xblk_apply (c : Dev nD) (t : Fin cfg0.N) (r : Fin 1024) (d : Fin 256) :
    xblk m c t (ix2 r d) = rowAt (xarr m c) (1024 * t.val + r.val) d := by
  have hN : t.val < 8 := lt_of_lt_of_eq t.isLt (show cfg0.N = 8 from N_0)
  have hlt : 1024 * t.val + r.val < 8192 := by have := r.isLt; omega
  rw [rowAt_of_lt _ _ hlt]
  have hi := idx_facts t
  show iblk m c 0 t (ix2 r d) = V m c main_v0 _
  unfold iblk
  rw [View.read_apply]
  show V m c main_v0 _ = V m c main_v0 _
  congr 1
  funext a
  apply Fin.ext
  match a with
  | ⟨0, _⟩ => show win0_0.index t 0 * 1024 + 1 * r.val = 1024 * t.val + r.val; rw [hi.1]; omega
  | ⟨1, _⟩ => show win0_0.index t 1 * 256 + 1 * d.val = d.val; rw [hi.2]; omega

/-! ## What each case leaves, over the point's block -/

theorem step_first (c : Dev nD) (t : Fin cfg0.N) (h0 : t.val % 8 = 0) (h1 : ¬t.val % 8 = 7) :
    (outsAt0 m c t.val t.isLt).2.1 = k0_pay4 (F := Ideal) (xblk m c t) (k0_pay1 (F := Ideal))
    ∧ (outsAt0 m c t.val t.isLt).2.2 = k0_pay5 (F := Ideal) (xblk m c t) (k0_pay2 (F := Ideal)) := by
  rw [outsAt0_A m c t h0 h1]
  dsimp only
  exact ⟨first_cols (F := Ideal) c (grid0.coords t) (ms0_0 t) (hs0_0 t) (ms0_1 t) (hs0_1 t) scM0_0 (Memref.isWhole_whole _) scM0_1 (Memref.isWhole_whole _) ((hcond0_0 t).mpr h0) (fun h => h1 ((hcond0_1 t).mp h)) (iblk m c 0 t),
    first_sq (F := Ideal) c (grid0.coords t) (ms0_0 t) (hs0_0 t) (ms0_1 t) (hs0_1 t) scM0_0 (Memref.isWhole_whole _) scM0_1 (Memref.isWhole_whole _) ((hcond0_0 t).mpr h0) (fun h => h1 ((hcond0_1 t).mp h)) (iblk m c 0 t)⟩

theorem step_middle (c : Dev nD) (t : Fin cfg0.N) (h0 : ¬t.val % 8 = 0) (h1 : ¬t.val % 8 = 7) :
    (outsAt0 m c t.val t.isLt).2.1 = k0_pay4 (F := Ideal) (xblk m c t) (outsAt0 m c (t.val - 1) (Nat.lt_of_le_of_lt (Nat.sub_le _ _) t.isLt)).2.1
    ∧ (outsAt0 m c t.val t.isLt).2.2 = k0_pay5 (F := Ideal) (xblk m c t) (outsAt0 m c (t.val - 1) (Nat.lt_of_le_of_lt (Nat.sub_le _ _) t.isLt)).2.2 := by
  rw [outsAt0_B m c t h0 h1]
  dsimp only
  exact ⟨middle_cols (F := Ideal) c (grid0.coords t) (ms0_0 t) (hs0_0 t) (ms0_1 t) (hs0_1 t) scM0_0 (Memref.isWhole_whole _) scM0_1 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2.1 (outsAt0 m c (t.val - 1) (Nat.lt_of_le_of_lt (Nat.sub_le _ _) t.isLt)).2.2,
    middle_sq (F := Ideal) c (grid0.coords t) (ms0_0 t) (hs0_0 t) (ms0_1 t) (hs0_1 t) scM0_0 (Memref.isWhole_whole _) scM0_1 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2.1 (outsAt0 m c (t.val - 1) (Nat.lt_of_le_of_lt (Nat.sub_le _ _) t.isLt)).2.2⟩

theorem step_last (c : Dev nD) (t : Fin cfg0.N) (h0 : ¬t.val % 8 = 0) (h1 : t.val % 8 = 7) :
    (outsAt0 m c t.val t.isLt).2.1 = k0_pay4 (F := Ideal) (xblk m c t) (outsAt0 m c (t.val - 1) (Nat.lt_of_le_of_lt (Nat.sub_le _ _) t.isLt)).2.1
    ∧ (outsAt0 m c t.val t.isLt).2.2 = k0_pay5 (F := Ideal) (xblk m c t) (outsAt0 m c (t.val - 1) (Nat.lt_of_le_of_lt (Nat.sub_le _ _) t.isLt)).2.2
    ∧ (outsAt0 m c t.val t.isLt).1
        = k0_pay6 (F := Ideal) (k0_pay4 (F := Ideal) (xblk m c t) (outsAt0 m c (t.val - 1) (Nat.lt_of_le_of_lt (Nat.sub_le _ _) t.isLt)).2.1) (k0_pay5 (F := Ideal) (xblk m c t) (outsAt0 m c (t.val - 1) (Nat.lt_of_le_of_lt (Nat.sub_le _ _) t.isLt)).2.2) := by
  rw [outsAt0_C m c t h0 h1]
  dsimp only
  exact ⟨last_cols (F := Ideal) c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (iblk m c 0 t) (outsAt0 m c (t.val - 1) (Nat.lt_of_le_of_lt (Nat.sub_le _ _) t.isLt)).2.1 (outsAt0 m c (t.val - 1) (Nat.lt_of_le_of_lt (Nat.sub_le _ _) t.isLt)).2.2,
    last_sq (F := Ideal) c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (iblk m c 0 t) (outsAt0 m c (t.val - 1) (Nat.lt_of_le_of_lt (Nat.sub_le _ _) t.isLt)).2.1 (outsAt0 m c (t.val - 1) (Nat.lt_of_le_of_lt (Nat.sub_le _ _) t.isLt)).2.2,
    last_out (F := Ideal) c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (iblk m c 0 t) (outsAt0 m c (t.val - 1) (Nat.lt_of_le_of_lt (Nat.sub_le _ _) t.isLt)).2.1 (outsAt0 m c (t.val - 1) (Nat.lt_of_le_of_lt (Nat.sub_le _ _) t.isLt)).2.2⟩

/-! ## One block added to each accumulator -/

/-- Adding block t's column sums to the partial column sums over the first t blocks gives those over t + 1. -/
theorem cols_step (c : Dev nD) (t : Fin cfg0.N) (s : FVec Ideal S1x256 .f32) (d : Fin 256)
    (hs : s (ix2 0 d) = colPartial (xarr m c) t.val d) :
    k0_pay4 (F := Ideal) (xblk m c t) s (ix2 0 d) = colPartial (xarr m c) (t.val + 1) d := by
  refine (pay4_apply (xblk m c t) s 0 d).trans ?_
  rw [hs, colPartial_succ]
  exact congrArg (colPartial (xarr m c) t.val d + ·) (Finset.sum_congr rfl fun r _ => xblk_apply m c t r d)

/-- The same for the sum of squares. -/
theorem sq_step (c : Dev nD) (t : Fin cfg0.N) (q : FVec Ideal S1x1 .f32)
    (hq : q (ix2 0 0) = sqPartial (xarr m c) t.val) :
    k0_pay5 (F := Ideal) (xblk m c t) q (ix2 0 0) = sqPartial (xarr m c) (t.val + 1) := by
  refine (pay5_apply (xblk m c t) q 0 0).trans ?_
  rw [hq, sqPartial_succ]
  refine congrArg (sqPartial (xarr m c) t.val + ·) (Finset.sum_congr rfl fun r _ => Finset.sum_congr rfl fun d _ => ?_)
  rw [xblk_apply m c t r d]

/-! ## The accumulators after each point -/

/-- After point n the carried row is the column sums over the first n + 1 blocks and the carried number the sum of
    squares over them. -/
theorem acc_eq (c : Dev nD) : ∀ (n : ℕ) (hn : n < cfg0.N),
    (∀ d : Fin 256, (outsAt0 m c n hn).2.1 (ix2 0 d) = colPartial (xarr m c) (n + 1) d)
    ∧ (outsAt0 m c n hn).2.2 (ix2 0 0) = sqPartial (xarr m c) (n + 1)
  | 0, hn => by
    obtain ⟨ea, eb⟩ := step_first m c ⟨0, hn⟩ rfl (by show ¬(0 : ℕ) % 8 = 7; decide)
    refine ⟨fun d => ?_, ?_⟩
    · exact (congrFun ea (ix2 0 d)).trans (cols_step m c ⟨0, hn⟩ _ d ((pay1_apply _).trans (colPartial_zero _ d).symm))
    · exact (congrFun eb (ix2 0 0)).trans (sq_step m c ⟨0, hn⟩ _ ((pay2_apply _).trans (sqPartial_zero _).symm))
  | n + 1, hn => by
    have hN : n + 1 < 8 := lt_of_lt_of_eq hn (show cfg0.N = 8 from N_0)
    obtain ⟨ihc, ihq⟩ := acc_eq c n (Nat.lt_of_succ_lt hn)
    have h0 : ¬(⟨n + 1, hn⟩ : Fin cfg0.N).val % 8 = 0 := by dsimp only; omega
    by_cases h1 : (⟨n + 1, hn⟩ : Fin cfg0.N).val % 8 = 7
    · obtain ⟨ea, eb, -⟩ := step_last m c ⟨n + 1, hn⟩ h0 h1
      refine ⟨fun d => ?_, ?_⟩
      · exact (congrFun ea (ix2 0 d)).trans (cols_step m c ⟨n + 1, hn⟩ _ d (ihc d))
      · exact (congrFun eb (ix2 0 0)).trans (sq_step m c ⟨n + 1, hn⟩ _ ihq)
    · obtain ⟨ea, eb⟩ := step_middle m c ⟨n + 1, hn⟩ h0 h1
      refine ⟨fun d => ?_, ?_⟩
      · exact (congrFun ea (ix2 0 d)).trans (cols_step m c ⟨n + 1, hn⟩ _ d (ihc d))
      · exact (congrFun eb (ix2 0 0)).trans (sq_step m c ⟨n + 1, hn⟩ _ ihq)

/-! ## The last point's result -/

/-- What the last point stores in the result block, at its one entry: the specification's value of X. -/
theorem out_last (c : Dev nD) (t : Fin cfg0.N) (h7 : t.val % 8 = 7) :
    (outsAt0 m c t.val t.isLt).1 (ix2 0 0) = diversity (xarr m c) := by
  have hN : t.val < 8 := lt_of_lt_of_eq t.isLt (show cfg0.N = 8 from N_0)
  have ht : t.val + 1 = 8 := by omega
  have h0 : ¬t.val % 8 = 0 := by omega
  obtain ⟨ea, eb, eo⟩ := step_last m c t h0 h7
  obtain ⟨hc, hq⟩ := acc_eq m c t.val t.isLt
  have hA : ∀ d : Fin 256, k0_pay4 (F := Ideal) (xblk m c t) (outsAt0 m c (t.val - 1) (Nat.lt_of_le_of_lt (Nat.sub_le _ _) t.isLt)).2.1 (ix2 0 d) = colTotal (xarr m c) d :=
    fun d => ((congrFun ea (ix2 0 d)).symm.trans (hc d)).trans (by rw [ht]; exact colPartial_eight _ d)
  have hB : k0_pay5 (F := Ideal) (xblk m c t) (outsAt0 m c (t.val - 1) (Nat.lt_of_le_of_lt (Nat.sub_le _ _) t.isLt)).2.2 (ix2 0 0) = sqTotal (xarr m c) :=
    ((congrFun eb (ix2 0 0)).symm.trans hq).trans (by rw [ht]; exact sqPartial_eight _)
  refine (congrFun eo (ix2 0 0)).trans ((pay6_apply _ _ 0 0).trans ?_)
  have hsum : (∑ d : Fin 256, k0_pay4 (F := Ideal) (xblk m c t) (outsAt0 m c (t.val - 1) (Nat.lt_of_le_of_lt (Nat.sub_le _ _) t.isLt)).2.1 (ix2 0 d)
        * k0_pay4 (F := Ideal) (xblk m c t) (outsAt0 m c (t.val - 1) (Nat.lt_of_le_of_lt (Nat.sub_le _ _) t.isLt)).2.1 (ix2 0 d))
      = ∑ d : Fin 256, colTotal (xarr m c) d * colTotal (xarr m c) d :=
    Finset.sum_congr rfl fun d _ => by rw [hA d]
  rw [hsum, hB]
  rfl

end Cert.KernelIdeal.Accum

end
-- ==== Proof.KernelRun.lean ====
/-
  The kernel program's run, read as a value. The region's one write-back happens at the last grid point and writes
  the 1 × 1 result block, which is the whole result array, so that array ends at the specification's value of the
  flattened descriptors. Before the region the host flattens the argument (a reshape); after it the host reshapes
  the 1 × 1 array to a scalar, which reads the array's one entry. So every weakly fair execution terminates with
  the scalar result at the specification's value of the flattened argument, and the argument unchanged.
-/
import proofs.«126598_j42004780155257_1_alg».proof.Proof.Gen.KernelIdeal.Frame
import proofs.«126598_j42004780155257_1_alg».proof.Proof.KernelAccum
import proofs.«126598_j42004780155257_1_alg».proof.Proof.Spec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Run

open Cert.KernelIdeal Cert.KernelIdeal.Gen Cert.KernelIdeal.Accum Cert.Diversity
open Idealize.ShloMosaic.ValueIdx

variable (m : (ℓ : Loc nD τ sig) → Buf (Elt Ideal) ℓ) (ρ : Dev nD → PrngReg)

/-- The 1 × 1 result array after the region: the specification's value of the flattened descriptors. -/
abbrev result (c : Dev nD) : Buf (Elt Ideal) ((c : Thread nD τ).loc main_v1) := fun _ => diversity (xarr m c)

/-- A 1 × 1 block has one index. -/
theorem one_idx (j : S1x1.Idx) : j = ix2 (0 : Fin 1) (0 : Fin 1) :=
  funext fun a => match a with
    | ⟨0, _⟩ => Fin.ext (Nat.lt_one_iff.mp (j 0).isLt)
    | ⟨1, _⟩ => Fin.ext (Nat.lt_one_iff.mp (j 1).isLt)

/-- The last grid point. -/
abbrev tLast : Fin cfg0.N := ⟨7, by rw [show cfg0.N = 8 from N_0]; decide⟩

/-- The one write-back, at the last point, writes the result block, which is the whole result array. -/
theorem flushed_eq (c : Dev nD) (t : Fin cfg0.N) (hf : (cfg0.win 1).flush t = true) :
    (dats m 0 c).flushed 1 t = ((cfg0.win 1).blk t).view.read (Elt Ideal) (result m c) := by
  have h7 : t.val % 8 = 7 := (flush0_1 t).mp hf
  show (cfg0.win 1).cut (grid0.coords t) ((dats m 0 c).after 1 t) = _
  rw [after0_1]
  funext y
  rw [View.read_apply]
  show (outsAt0 m c t.val t.isLt).1 ((cfg0.win 1).xinj (grid0.coords t) y) = diversity (xarr m c)
  rw [one_idx ((cfg0.win 1).xinj (grid0.coords t) y)]
  exact out_last m c t h7

/-- So the result array ends holding that value: the last point's block covers it. -/
theorem final (c : Dev nD) : (dats m 0 c).arrAt 1 cfg0.N = result m c :=
  (dats m 0 c).arrAt_eq_of_cover 1 (result m c) (flushed_eq m c) fun i =>
    ⟨tLast, (flush0_1 tLast).mpr rfl, by
      show i ∈ ((View.whole main_v1).slice (win0_1.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_1.index tLast 0 * win0_1.size 0 ≤ (i 0 : Nat) ∧ (i 0 : Nat) < win0_1.index tLast 0 * win0_1.size 0 + win0_1.xsize (grid0.coords tLast) 0
                  rw [show win0_1.index tLast 0 * win0_1.size 0 = 0 from by decide +kernel, show win0_1.xsize (grid0.coords tLast) 0 = 1 from by decide +kernel]; omega
      | ⟨1, _⟩ => show win0_1.index tLast 1 * win0_1.size 1 ≤ (i 1 : Nat) ∧ (i 1 : Nat) < win0_1.index tLast 1 * win0_1.size 1 + win0_1.xsize (grid0.coords tLast) 1
                  rw [show win0_1.index tLast 1 * win0_1.size 1 = 0 from by decide +kernel, show win0_1.xsize (grid0.coords tLast) 1 = 1 from by decide +kernel]; omega⟩

/-- The flattened descriptors the region finds are the host's reshape of the argument. -/
theorem xarr_eq (c : Dev nD) :
    xarr m c = shapeCast S8192x256 (m ((c : Thread nD τ).loc main_arg0)) shapeCasts_S16x512x256_S8192x256 := by
  show StableHlo.after hostOps0 (fun b => m (c, b)) (Proc.devRef .tc main_v0) = _
  after_results
  rfl

/-- After the region the host reshapes the 1 × 1 array to a scalar: the result at its one index. -/
theorem tail_eq (c : Dev nD) :
    Pipeline.afterTail₀ cfgs (dats m) 0 (V0 m) [hostOps1] c main_v2 = fun _ => diversity (xarr m c) := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = result m c :=
    (Pipeline.withArrays_arr spec0 launch0.win.arr_inj c _ _ 1).trans (final m c)
  rw [hw]
  rfl

/-- Every weakly fair execution of the kernel program terminates with the scalar result at the specification's value
    of the flattened argument, the argument unchanged. -/
theorem run : θ_run defs (onTc (τ := τ) (main (F := Ideal))) ⟨m, fun _ => 0, ρ⟩ fun r => ∀ c : Dev nD,
      r.2.mem ((c.tc : Thread nD τ).loc main_v2)
        = (fun _ => diversity (shapeCast S8192x256 (m ((c.tc : Thread nD τ).loc main_arg0)) shapeCasts_S16x512x256_S8192x256))
      ∧ r.2.mem ((c.tc : Thread nD τ).loc main_arg0) = m ((c.tc : Thread nD τ).loc main_arg0) :=
  (θ_run defs _ _).mono (fun _ h c =>
      ⟨((h c).2 main_v2 (Pipeline.mem_restRefs_of main_v2 (by decide) (by decide))).trans
          ((tail_eq m c).trans (by rw [xarr_eq])),
        ((h c).2 main_arg0 (Pipeline.mem_restRefs_of main_arg0 (by decide) (by decide))).trans (W_main_arg0 m (dats m) c)⟩)
    (run_main m ρ)

end Cert.KernelIdeal.Run

end
-- ==== Proof.RefRun.lean ====
/-
  The reference program read back as a straight line. Its @main flattens the descriptors to X (8192 × 256), forms
  the whole similarity matrix X Xᵀ (a transpose and one dot_general), sums all its entries, takes its trace (the
  outlined trace function: the diagonal picked out by comparing the two iotas, every other entry replaced by zero,
  then summed), subtracts, divides by the float 8192 · 8191 and takes the absolute value. The two outlined
  functions are unfolded at their call sites over the call's own buffers, which makes @main a list of twenty host
  operations; every weakly fair execution of such a list terminates with each buffer at the operations' composed
  term of the argument.
-/
import proofs.«126598_j42004780155257_1_alg».proof.ReferenceIdeal
import proofs.«126598_j42004780155257_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's twenty operations in order, the trace function's eleven (its select included) at its call site. -/
abbrev ops : List (HloOp τ sig (Elt F)) :=
  [ reshape main_arg0 main_v0 rfl shapeCasts_S16x512x256_S8192x256,
    unary main_v0 main_v1 ((transpose S256x8192 [1, 0] · transposes_S8192x256_S256x8192_1_0) : (⟨S8192x256, .f32⟩ : BufTy).Contents (Elt F) → (⟨S256x8192, .f32⟩ : BufTy).Contents (Elt F)),
    binary main_v0 main_v1 main_v2 ((fun l r => Host.dotGeneral dot_S8192x256_S256x8192_S8192x8192_1_0_0_1_n_n none l r) : (⟨S8192x256, .f32⟩ : BufTy).Contents (Elt F) → (⟨S256x8192, .f32⟩ : BufTy).Contents (Elt F) → (⟨S8192x8192, .f32⟩ : BufTy).Contents (Elt F)),
    nullary main_cst (constant S_ .f32 0x00000000#32),
    binary main_v2 main_cst main_v3 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    TRef.nullary main_call0.v0 (iotaInDim S8192x8192 32 0),
    TRef.nullary main_call0.v1 (iotaInDim S8192x8192 32 1),
    TRef.nullary main_call0.c (constantI S_ 32 0#32),
    TRef.unary main_call0.c main_call0.v2 (broadcastInDim S8192x8192 ![] bcast_S_S8192x8192),
    TRef.binary main_call0.v0 main_call0.v2 main_call0.v3 addi,
    TRef.binary main_call0.v3 main_call0.v1 main_call0.v4 (cmpi .eq),
    TRef.nullary main_call0.cst (constant S_ .f32 0x00000000#32),
    TRef.unary main_call0.cst main_call0.v5 (broadcastInDim S8192x8192 ![] bcast_S_S8192x8192),
    TRef.ternary main_call0.v4 (.of main_v2) main_call0.v5 main_call0.call0.v0 select,
    TRef.nullary main_call0.cst_0 (constant S_ .f32 0x00000000#32),
    TRef.binary main_call0.call0.v0 main_call0.cst_0 main_call0.v7 (fun x v => Host.reduceAdd x v reducesTo_S8192x8192_S_d0_1 h_S_),
    binary main_v3 main_v4 main_v5 (subf : (⟨S_, .f32⟩ : BufTy).Contents (Elt F) → (⟨S_, .f32⟩ : BufTy).Contents (Elt F) → (⟨S_, .f32⟩ : BufTy).Contents (Elt F)),
    nullary main_cst_0 (constant S_ .f32 0x4C7FF800#32),
    binary main_v5 main_cst_0 main_v6 (Host.divf : (⟨S_, .f32⟩ : BufTy).Contents (Elt F) → (⟨S_, .f32⟩ : BufTy).Contents (Elt F) → (⟨S_, .f32⟩ : BufTy).Contents (Elt F)),
    unary main_v6 main_v7 (Host.absf : (⟨S_, .f32⟩ : BufTy).Contents (Elt F) → (⟨S_, .f32⟩ : BufTy).Contents (Elt F)) ]

set_option maxRecDepth 1024 in
/-- @main is that straight line: the two functions' bodies unfolded at their calls, sequencing reassociated. -/
theorem main_eq (c : Dev nD) : main (F := F) c = seq ops := by
  simp only [main, fn_trace.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨reshape_bufs_sub .., unary_bufs_sub .., binary_bufs_sub .., nullary_bufs_sub .., binary_bufs_sub ..,
    nullary_bufs_sub .., nullary_bufs_sub .., nullary_bufs_sub .., unary_bufs_sub .., binary_bufs_sub .., binary_bufs_sub ..,
    nullary_bufs_sub .., unary_bufs_sub .., ternary_bufs_sub .., nullary_bufs_sub .., binary_bufs_sub ..,
    binary_bufs_sub .., nullary_bufs_sub .., binary_bufs_sub .., unary_bufs_sub ..⟩

/-- The reference's result from the flattened matrix X: all entries of X Xᵀ summed, less its trace (the sum of the
    entries the diagonal mask keeps), over the float 8192 · 8191, in absolute value. -/
def refOfMat (X : FVec F S8192x256 .f32) : FVec F S_ .f32 :=
  Host.absf (Host.divf
    (subf
      (Host.reduceAdd
        (Host.dotGeneral dot_S8192x256_S256x8192_S8192x8192_1_0_0_1_n_n none X
          (transpose S256x8192 [1, 0] X transposes_S8192x256_S256x8192_1_0))
        (constant S_ .f32 0x00000000#32) reducesTo_S8192x8192_S_d0_1 h_S_)
      (Host.reduceAdd
        (select
          (cmpi .eq
            (addi (iotaInDim S8192x8192 32 0) (broadcastInDim S8192x8192 ![] bcast_S_S8192x8192 (constantI S_ 32 0#32)))
            (iotaInDim S8192x8192 32 1))
          (Host.dotGeneral dot_S8192x256_S256x8192_S8192x8192_1_0_0_1_n_n none X
            (transpose S256x8192 [1, 0] X transposes_S8192x256_S256x8192_1_0))
          (broadcastInDim S8192x8192 ![] bcast_S_S8192x8192 (constant S_ .f32 0x00000000#32)))
        (constant S_ .f32 0x00000000#32) reducesTo_S8192x8192_S_d0_1 h_S_))
    (constant S_ .f32 0x4C7FF800#32))

/-- The reference's result from its argument: the descriptors flattened, then `refOfMat`. -/
def refTerm (A : FVec F S16x512x256 .f32) : FVec F S_ .f32 :=
  refOfMat (shapeCast S8192x256 A shapeCasts_S16x512x256_S8192x256)

/-- On every device, from any memory with zero counters: every weakly fair execution of @main terminates with the
    result at `refTerm` of the argument's launch contents, the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v7) = refTerm (m ((c.tc : Thread nD τ).loc main_arg0))
      ∧ r.2.mem ((c.tc : Thread nD τ).loc main_arg0) = m ((c.tc : Thread nD τ).loc main_arg0) :=
  (θ_run defs _ _).mono (fun _ h c => ⟨(h c main_v7).trans (by after_results; rfl),
      (h c main_arg0).trans (by after_results)⟩)
    (run_seq scopedRefs_eq scopedSems_eq defs main (fun _ => ops) main_eq (fun _ => ops_sub) m ρ)

end Cert.ReferenceIdeal.RefRun

end
-- ==== Proof.GramLaw.lean ====
/-
  The algebraic law that joins the two sides. For a real matrix x with rows i and columns d,

      ∑ᵢ ∑ⱼ ∑_d x i d · x j d  =  ∑_d (∑ᵢ x i d) · (∑ⱼ x j d):

  the sum of all entries of the Gram matrix x xᵀ is the squared length of the vector of column sums.
  Over the reals it is distributivity and a change of the order of summation. Over the extended reals
  distributivity fails at the infinities, so the law is stated there for matrices all of whose entries are
  real, and proved by pushing the coercion outwards.
-/
import Idealize.ShloMosaic.PureOps.Ideal

noncomputable section

open scoped BigOperators

namespace Cert.Diversity

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable {ι κ : Type*} [Fintype ι] [Fintype κ]

/-- The sum of the Gram matrix's entries is the squared length of the column sums, over the reals. -/
theorem gram_real (x : ι → κ → ℝ) :
    ∑ i, ∑ j, ∑ d, x i d * x j d = ∑ d, (∑ i, x i d) * (∑ j, x j d) := by
  have h1 : ∀ i, ∑ j, ∑ d, x i d * x j d = ∑ d, ∑ j, x i d * x j d := fun i => Finset.sum_comm
  simp only [h1]
  rw [Finset.sum_comm]
  refine Finset.sum_congr rfl fun d _ => ?_
  rw [Finset.sum_mul]
  exact Finset.sum_congr rfl fun i _ => (Finset.mul_sum _ _ _).symm

/-- The same over the extended reals, for a matrix whose entries are all real. -/
theorem gram_ereal (X : ι → κ → EReal) (x : ι → κ → ℝ) (hX : ∀ i d, X i d = (x i d : EReal)) :
    ∑ i, ∑ j, ∑ d, X i d * X j d = ∑ d, (∑ i, X i d) * (∑ j, X j d) := by
  simp only [hX, ← EReal.coe_mul, ← coe_sum]
  exact congrArg _ (gram_real x)

end Cert.Diversity

end
-- ==== Proof.RefValue.lean ====
/-
  The reference's result is the specification. With X the flattened descriptors:

    the similarity matrix at (a, b) is ∑_d X a d · X b d (one contracted axis; the transposed operand read back);
    the host's sum over both axes from zero is the double sum over (a, b);
    the diagonal mask compares the two iotas as 32-bit words, which for coordinates below 8192 is a = b, so the
    masked sum keeps exactly the entries (a, a): the trace, ∑ₐ ∑_d (X a d)²;
    the sum of all entries is ∑ₐ ∑_b ∑_d X a d · X b d, which for a matrix of real entries is the squared length of
    the column sums (the law of GramLaw.lean; this is the one step that needs the entries finite).
-/
import proofs.«126598_j42004780155257_1_alg».proof.Proof.RefRun
import proofs.«126598_j42004780155257_1_alg».proof.Proof.Spec
import proofs.«126598_j42004780155257_1_alg».proof.Proof.GramLaw
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

noncomputable section

open scoped BigOperators

namespace Cert.ReferenceIdeal.RefValue

open Cert.ReferenceIdeal Cert.ReferenceIdeal.Gen Cert.ReferenceIdeal.RefRun Cert.Diversity
open Idealize.ShloMosaic Idealize.ShloMosaic.ValueIdx

/-! ## The similarity matrix at an entry -/

theorem lhs_row (j : S8192x8192.Idx) (k : dot_S8192x256_S256x8192_S8192x8192_1_0_0_1_n_n.contr.Idx) :
    (dot_S8192x256_S256x8192_S8192x8192_1_0_0_1_n_n.lhsIdx j k 0).val = (j 0).val := rfl
theorem lhs_col (j : S8192x8192.Idx) (k : dot_S8192x256_S256x8192_S8192x8192_1_0_0_1_n_n.contr.Idx) :
    (dot_S8192x256_S256x8192_S8192x8192_1_0_0_1_n_n.lhsIdx j k 1).val = (k ⟨0, by decide⟩).val :=
  dot_S8192x256_S256x8192_S8192x8192_1_0_0_1_n_n.lhsIdx_val_of_single rfl j k
theorem rhs_row (j : S8192x8192.Idx) (k : dot_S8192x256_S256x8192_S8192x8192_1_0_0_1_n_n.contr.Idx) :
    (dot_S8192x256_S256x8192_S8192x8192_1_0_0_1_n_n.rhsIdx j k 0).val = (k ⟨0, by decide⟩).val :=
  dot_S8192x256_S256x8192_S8192x8192_1_0_0_1_n_n.rhsIdx_val_of_single rfl j k
theorem rhs_col (j : S8192x8192.Idx) (k : dot_S8192x256_S256x8192_S8192x8192_1_0_0_1_n_n.contr.Idx) :
    (dot_S8192x256_S256x8192_S8192x8192_1_0_0_1_n_n.rhsIdx j k 1).val = (j 1).val := rfl

/-- The similarity matrix X Xᵀ of the host, as the reference forms it. -/
abbrev sim (X : FVec Ideal S8192x256 .f32) : FVec Ideal S8192x8192 .f32 :=
  Host.dotGeneral dot_S8192x256_S256x8192_S8192x8192_1_0_0_1_n_n none X (transpose S256x8192 [1, 0] X transposes_S8192x256_S256x8192_1_0)

/-- Its entry (a, b): row a of X against row b of X. -/
theorem sim_apply (X : FVec Ideal S8192x256 .f32) (a b : Fin 8192) :
    sim X (ix2 a b) = ∑ d : Fin 256, X (ix2 a d) * X (ix2 b d) := by
  refine (Ideal.dotGeneral_apply dot_S8192x256_S256x8192_S8192x8192_1_0_0_1_n_n none .single X _ (ix2 a b)).trans ?_
  refine ((contrEquiv1 dot_S8192x256_S256x8192_S8192x8192_1_0_0_1_n_n 256 rfl rfl).symm.sum_comp _).symm.trans ?_
  refine Finset.sum_congr rfl fun d _ => ?_
  have hk := contrEquiv1_symm_val dot_S8192x256_S256x8192_S8192x8192_1_0_0_1_n_n 256 rfl rfl d
  have hl : dot_S8192x256_S256x8192_S8192x8192_1_0_0_1_n_n.lhsIdx (ix2 a b) ((contrEquiv1 dot_S8192x256_S256x8192_S8192x8192_1_0_0_1_n_n 256 rfl rfl).symm d) = ix2 a d :=
    Shape.idx_ext₂ (lhs_row _ _) ((lhs_col _ _).trans hk)
  have hr : dot_S8192x256_S256x8192_S8192x8192_1_0_0_1_n_n.rhsIdx (ix2 a b) ((contrEquiv1 dot_S8192x256_S256x8192_S8192x8192_1_0_0_1_n_n 256 rfl rfl).symm d) = ix2 d b :=
    Shape.idx_ext₂ ((rhs_row _ _).trans hk) (rhs_col _ _)
  rw [hl, hr, transpose_ix2_apply]

/-! ## The host's sum over both axes -/

/-- A host sum of an 8192 × 8192 array over both axes, from zero: the double sum over its coordinates. -/
theorem hostSum_apply (Y : FVec Ideal S8192x8192 .f32) (j : S_.Idx) :
    Host.reduceAdd Y (constant S_ .f32 0x00000000#32) reducesTo_S8192x8192_S_d0_1 h_S_ j
      = ∑ a : Fin 8192, ∑ b : Fin 8192, Y (ix2 a b) := by
  show Ideal.hostReduceAdd reducesTo_S8192x8192_S_d0_1 Y (Ideal.ofBits .f32 0x00000000#32) j = _
  rw [Ideal.hostReduceAdd_total reducesTo_S8192x8192_S_d0_1 (fun b => b.elim0) Y _ j, Ideal.ofBits_zero_f32, zero_add,
    sum_idx2]

/-! ## The diagonal mask -/

/-- The mask's word at (a, b) is 1 exactly on the diagonal: coordinates below 8192 are distinct 32-bit words. -/
theorem masked_apply (Y Z : FVec Ideal S8192x8192 .f32) (a b : Fin 8192) :
    select (cmpi .eq (addi (iotaInDim S8192x8192 32 0) (broadcastInDim S8192x8192 ![] bcast_S_S8192x8192 (constantI S_ 32 0#32)))
        (iotaInDim S8192x8192 32 1)) Y Z (ix2 a b)
      = if a = b then Y (ix2 a b) else Z (ix2 a b) := by
  show Scalar.select (IntOp.cmpi .eq (IntOp.addi (BitVec.ofNat 32 a.val) 0#32) (BitVec.ofNat 32 b.val)) _ _ = _
  by_cases h : a = b
  · subst h
    rw [if_pos rfl, StableHlo.Predicate.cmpi_eq_iff.mpr (by simp [IntOp.addi]), select_one]
  · have hne : ¬IntOp.cmpi .eq (IntOp.addi (BitVec.ofNat 32 a.val) 0#32) (BitVec.ofNat 32 b.val) = 1#1 := by
      rw [StableHlo.Predicate.cmpi_eq_iff]
      intro e
      have e' := congrArg BitVec.toNat e
      simp only [IntOp.addi, BitVec.add_zero, BitVec.toNat_ofNat] at e'
      have ha := a.isLt
      have hb := b.isLt
      exact h (Fin.ext (by omega))
    rw [if_neg h, eq_zero_of_ne_one hne, select_zero]

/-- The zero array the mask falls back to. -/
theorem zeros_apply (i : S8192x8192.Idx) :
    broadcastInDim S8192x8192 ![] bcast_S_S8192x8192 (constant (F := Ideal) S_ .f32 0x00000000#32) i = 0 :=
  Ideal.ofBits_zero_f32

/-! ## The result -/

/-- The last three operations at the one index: subtract, divide by the constant, absolute value. -/
theorem closing (A B : FVec Ideal S_ .f32) (j : S_.Idx) :
    Host.absf (Host.divf (subf A B) (constant S_ .f32 0x4C7FF800#32)) j
      = max (Ideal.div (A j - B j) (Ideal.ofBits .f32 0x4C7FF800#32))
          (-(Ideal.div (A j - B j) (Ideal.ofBits .f32 0x4C7FF800#32))) := rfl

/-- The reference's result at its one index, for any X: the double sum of the similarity matrix less its diagonal,
    over the float 8192 · 8191, in absolute value. -/
theorem refOfMat_apply (X : FVec Ideal S8192x256 .f32) (j : S_.Idx) :
    refOfMat (F := Ideal) X j
      = max (Ideal.div ((∑ a : Fin 8192, ∑ b : Fin 8192, ∑ d : Fin 256, X (ix2 a d) * X (ix2 b d)) - sqTotal X)
              (Ideal.ofBits .f32 0x4C7FF800#32))
          (-(Ideal.div ((∑ a : Fin 8192, ∑ b : Fin 8192, ∑ d : Fin 256, X (ix2 a d) * X (ix2 b d)) - sqTotal X)
              (Ideal.ofBits .f32 0x4C7FF800#32))) := by
  have e1 : Host.reduceAdd (sim X) (constant S_ .f32 0x00000000#32) reducesTo_S8192x8192_S_d0_1 h_S_ j
      = ∑ a : Fin 8192, ∑ b : Fin 8192, ∑ d : Fin 256, X (ix2 a d) * X (ix2 b d) := by
    rw [hostSum_apply]
    exact Finset.sum_congr rfl fun a _ => Finset.sum_congr rfl fun b _ => sim_apply X a b
  have e2 : Host.reduceAdd
        (select (cmpi .eq (addi (iotaInDim S8192x8192 32 0) (broadcastInDim S8192x8192 ![] bcast_S_S8192x8192 (constantI S_ 32 0#32)))
          (iotaInDim S8192x8192 32 1)) (sim X) (broadcastInDim S8192x8192 ![] bcast_S_S8192x8192 (constant S_ .f32 0x00000000#32)))
        (constant S_ .f32 0x00000000#32) reducesTo_S8192x8192_S_d0_1 h_S_ j
      = sqTotal X := by
    rw [hostSum_apply]
    unfold sqTotal
    refine Finset.sum_congr rfl fun a _ => ?_
    refine (Finset.sum_congr rfl fun b _ =>
      (masked_apply (sim X) _ a b).trans (if_congr Iff.rfl rfl (zeros_apply (ix2 a b)))).trans ?_
    rw [Finset.sum_ite_eq Finset.univ a (fun b => sim X (ix2 a b)), if_pos (Finset.mem_univ a), sim_apply]
  unfold refOfMat
  refine (closing _ _ j).trans ?_
  rw [e1, e2]

/-- For a matrix of real entries the reference's result is the specification's. -/
theorem refOfMat_eq (X : FVec Ideal S8192x256 .f32) (x : Fin 8192 → Fin 256 → ℝ)
    (hX : ∀ a d, X (ix2 a d) = (x a d : EReal)) (j : S_.Idx) :
    refOfMat (F := Ideal) X j = diversity X := by
  rw [refOfMat_apply, gram_ereal (fun a d => X (ix2 a d)) x hX]
  rfl

end Cert.ReferenceIdeal.RefValue

end
-- ==== Proof.lean ====
/-
  The proof of `Cert.Claim`: the three frames, the (empty) idealization ledger, and the equivalence over the
  extended reals of a descriptor-diversity kernel and its jnp reference.

  The mathematics. Flatten the descriptors to a matrix X of 8192 rows and 256 columns. The reference forms the whole
  similarity matrix X Xᵀ, sums all its entries, subtracts its trace, divides by the float 8192 · 8191 and takes the
  absolute value. The kernel never forms X Xᵀ: it walks the rows in eight blocks of 1024, carrying the 256 column
  sums and the sum of the squared entries, and at the last block computes
  | (∑_d (∑ᵢ X i d)² − ∑ᵢ ∑_d (X i d)²) / c |. The trace of X Xᵀ is the sum of the squared entries, on any extended
  reals; the sum of all its entries is the squared length of the column sums by distributivity, which holds because
  the precondition makes every entry a real number. Blocked and whole sums agree by associativity and commutativity
  alone. Both programs divide by the same float and take the same absolute value, so those are never evaluated.

  Both kernel frames are the generated frame certificates. The reference calls two outlined functions, so its run is
  read back by hand as a straight line of twenty host operations, and its frame is that run with the result dropped.
-/
import proofs.«126598_j42004780155257_1_alg».proof.Defs
import proofs.«126598_j42004780155257_1_alg».proof.Proof.Gen.Kernel
import proofs.«126598_j42004780155257_1_alg».proof.Proof.Gen.Kernel.Skeleton
import proofs.«126598_j42004780155257_1_alg».proof.Proof.Gen.Kernel.Launch
import proofs.«126598_j42004780155257_1_alg».proof.Proof.Gen.Kernel.Points
import proofs.«126598_j42004780155257_1_alg».proof.Proof.Gen.Kernel.Frame
import proofs.«126598_j42004780155257_1_alg».proof.Proof.Gen.KernelIdeal
import proofs.«126598_j42004780155257_1_alg».proof.Proof.Gen.KernelIdeal.Skeleton
import proofs.«126598_j42004780155257_1_alg».proof.Proof.Gen.KernelIdeal.Launch
import proofs.«126598_j42004780155257_1_alg».proof.Proof.Gen.KernelIdeal.Points
import proofs.«126598_j42004780155257_1_alg».proof.Proof.Gen.KernelIdeal.Frame
import proofs.«126598_j42004780155257_1_alg».proof.Proof.Gen.ReferenceIdeal
import proofs.«126598_j42004780155257_1_alg».proof.Proof.Gen.Pre_finite_inputs
import proofs.«126598_j42004780155257_1_alg».proof.Proof.Spec
import proofs.«126598_j42004780155257_1_alg».proof.Proof.Finite
import proofs.«126598_j42004780155257_1_alg».proof.Proof.KernelRun
import proofs.«126598_j42004780155257_1_alg».proof.Proof.RefRun
import proofs.«126598_j42004780155257_1_alg».proof.Proof.RefValue
import Idealize.ShloMosaic.Adequacy
import Idealize.ShloMosaic.Init

noncomputable section

namespace Cert.Proof

open Idealize.ShloMosaic Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- Both programs end at the specification's value of the flattened argument: the kernel on any extended reals, the
    reference because the precondition makes every entry real. -/
theorem algebraic : Cert.algebraic_KernelIdeal_ReferenceIdeal := by
  intro m ρ m' ρ' hpre hagree
  refine ⟨_, Cert.KernelIdeal.Run.run m ρ, ?_⟩
  refine (θ_run Cert.ReferenceIdeal.defs _ _).mono (fun _ h c => ⟨(h c).1.trans ?_, (h c).2⟩)
    (Cert.ReferenceIdeal.RefRun.run (F := Ideal) m' ρ')
  rw [hagree c]
  funext j
  have hreal : ∀ (a : Fin 8192) (d : Fin 256), ∃ r : ℝ,
      shapeCast Cert.ReferenceIdeal.S8192x256
          (m ((c.tc : Thread Cert.KernelIdeal.nD Cert.KernelIdeal.τ).loc Cert.KernelIdeal.main_arg0))
          Cert.ReferenceIdeal.Gen.shapeCasts_S16x512x256_S8192x256 (ix2 a d) = (r : EReal) :=
    fun a d => by unfold shapeCast; exact Cert.Pre_finite_inputs.Finite.real_of_pre _ (hpre c) _
  choose x hx using hreal
  exact Cert.ReferenceIdeal.RefValue.refOfMat_eq _ x hx j

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
